-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96x96 .f32) (main_arg5 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg4
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  main_v28

def fn {F : FTy → Type} [FloatOps F] (main_arg0 : FVec F S50000x96 .f32) (main_arg1 : FVec F S800000 .f32) (main_arg2 : FVec F S96x96 .f32) (main_arg3 : FVec F S96 .f32) (main_arg4 : FVec F S96x96 .f32) (main_arg5 : FVec F S96 .f32) (main_arg6 : IVec S800000 32) (main_arg7 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_v13 main_v16
-- ==== Kernel.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S800000x1 : Shape := ⟨2, ![800000, 1]⟩
abbrev S_ : Shape := ⟨0, ![]⟩
abbrev S800000x96 : Shape := ⟨2, ![800000, 96]⟩
abbrev S1x96 : Shape := ⟨2, ![1, 96]⟩
abbrev S5000x96 : Shape := ⟨2, ![5000, 96]⟩

abbrev nBuf : Space → Nat
  | .hbm => 29
  | .vmem => 10
  | .smem => 0
  | _ => 0

abbrev bufTy : (tb : Table) → Fin (tcTables nBuf tb) → BufTy
  | .hbm, ⟨0, _⟩ => ⟨S50000x96, .f32⟩
  | .hbm, ⟨1, _⟩ => ⟨S800000, .f32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S800000, .i32⟩
  | .hbm, ⟨7, _⟩ => ⟨S800000, .i32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x96, .f32⟩
  | .hbm, ⟨18, _⟩ => ⟨S800000x96, .f32⟩
  | .hbm, ⟨19, _⟩ => ⟨S800000x96, .f32⟩
  | .hbm, ⟨20, _⟩ => ⟨S_, .f32⟩
  | .hbm, ⟨21, _⟩ => ⟨S50000x96, .f32⟩
  | .hbm, ⟨22, _⟩ => ⟨S800000x1, .i32⟩
  | .hbm, ⟨23, _⟩ => ⟨S50000x96, .f32⟩
  | .hbm, ⟨24, _⟩ => ⟨S96x96, .f32⟩
  | .hbm, ⟨25, _⟩ => ⟨S96x96, .f32⟩
  | .hbm, ⟨26, _⟩ => ⟨S1x96, .f32⟩
  | .hbm, ⟨27, _⟩ => ⟨S1x96, .f32⟩
  | .hbm, ⟨28, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .f32⟩
  | .local _ .vmem, ⟨5, _⟩ => ⟨S1x96, .f32⟩
  | .local _ .vmem, ⟨6, _⟩ => ⟨S96x96, .f32⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  transposes_S96x96_S96x96_1_0 : S96x96.Transposes [1, 0] S96x96
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S800000x1 : Shape := ⟨2, ![800000, 1]⟩
abbrev S_ : Shape := ⟨0, ![]⟩
abbrev S800000x96 : Shape := ⟨2, ![800000, 96]⟩
abbrev S1x96 : Shape := ⟨2, ![1, 96]⟩

abbrev nBuf : Space → Nat
  | .hbm => 51
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .f32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S800000, .i32⟩
  | .hbm, ⟨7, _⟩ => ⟨S800000, .i32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x96, .f32⟩
  | .hbm, ⟨18, _⟩ => ⟨S800000x96, .f32⟩
  | .hbm, ⟨19, _⟩ => ⟨S800000x96, .f32⟩
  | .hbm, ⟨20, _⟩ => ⟨S_, .f32⟩
  | .hbm, ⟨21, _⟩ => ⟨S50000x96, .f32⟩
  | .hbm, ⟨22, _⟩ => ⟨S800000x1, .i32⟩
  | .hbm, ⟨23, _⟩ => ⟨S50000x96, .f32⟩
  | .hbm, ⟨24, _⟩ => ⟨S50000x96, .f32⟩
  | .hbm, ⟨25, _⟩ => ⟨S96x96, .f32⟩
  | .hbm, ⟨26, _⟩ => ⟨S50000x96, .f32⟩
  | .hbm, ⟨27, _⟩ => ⟨S1x96, .f32⟩
  | .hbm, ⟨28, _⟩ => ⟨S50000x96, .f32⟩
  | .hbm, ⟨29, _⟩ => ⟨S50000x96, .f32⟩
  | .hbm, ⟨30, _⟩ => ⟨S_, .f32⟩
  | .hbm, ⟨31, _⟩ => ⟨S50000x96, .f32⟩
  | .hbm, ⟨32, _⟩ => ⟨S50000x96, .i1⟩
  | .hbm, ⟨33, _⟩ => ⟨S_, .f32⟩
  | .hbm, ⟨34, _⟩ => ⟨S50000x96, .f32⟩
  | .hbm, ⟨35, _⟩ => ⟨S50000x96, .f32⟩
  | .hbm, ⟨36, _⟩ => ⟨S50000x96, .f32⟩
  | .hbm, ⟨37, _⟩ => ⟨S50000x96, .f32⟩
  | .hbm, ⟨38, _⟩ => ⟨S96x96, .f32⟩
  | .hbm, ⟨39, _⟩ => ⟨S50000x96, .f32⟩
  | .hbm, ⟨40, _⟩ => ⟨S1x96, .f32⟩
  | .hbm, ⟨41, _⟩ => ⟨S50000x96, .f32⟩
  | .hbm, ⟨42, _⟩ => ⟨S50000x96, .f32⟩
  | .hbm, ⟨43, _⟩ => ⟨S_, .f32⟩
  | .hbm, ⟨44, _⟩ => ⟨S50000x96, .f32⟩
  | .hbm, ⟨45, _⟩ => ⟨S50000x96, .i1⟩
  | .hbm, ⟨46, _⟩ => ⟨S_, .f32⟩
  | .hbm, ⟨47, _⟩ => ⟨S50000x96, .f32⟩
  | .hbm, ⟨48, _⟩ => ⟨S50000x96, .f32⟩
  | .hbm, ⟨49, _⟩ => ⟨S50000x96, .f32⟩
  | .hbm, ⟨50, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.KernelEntry.lean ====
/-
  What the kernel's region finds in the arrays its windows stage: the node features as launched; the aggregated
  neighbour features (the host's gather of ego rows by column index, scaled by the edge values and scatter-added by
  row index), kept whole as one stage; each weight matrix transposed; each bias as one row.
-/
import proofs.«151502_j61203283968808_1_alg».proof.Proof.Gen.KernelIdeal.Frame
import Idealize.ShloMosaic.Lib.StableHlo.Run
import Idealize.ShloMosaic.Lib.ValueLayout

noncomputable section

namespace Cert.BiInteraction

open Cert.KernelIdeal Cert.KernelIdeal.Gen Idealize.ShloMosaic Idealize.ShloMosaic.TcCoe Idealize.SL.Sem
open Idealize.ShloMosaic.StableHlo Idealize.ShloMosaic.ValueIdx

/-- The aggregated neighbour features as the kernel's program computes them before its region: for each edge the ego
    row at the edge's (wrapped) column index times the edge's value, added into the row at the edge's row index. -/
def kernelSide (x0 : (⟨S50000x96, .f32⟩ : BufTy).Contents (Elt Ideal)) (x1 : (⟨S800000, .f32⟩ : BufTy).Contents (Elt Ideal))
    (x6 x7 : (⟨S800000, .i32⟩ : BufTy).Contents (Elt Ideal)) : (⟨S50000x96, .f32⟩ : BufTy).Contents (Elt Ideal) :=
  Host.scatterAdd (F := Ideal) scatter_S50000x96_S800000x1_S800000x96_1_0_0_1
    (broadcastInDim S50000x96 ![] bcast_S_S50000x96 (constant (F := Ideal) S_ .f32 0x00000000#32))
    (broadcastInDim S800000x1 ![0] bcast_S800000_S800000x1_0 x6)
    (mulf (F := Ideal) (broadcastInDim S800000x96 ![0, 1] bcast_S800000x1_S800000x96_0_1 (broadcastInDim S800000x1 ![0] bcast_S800000_S800000x1_0 x1))
      (Host.gather gather_S50000x96_S800000x1_S800000x96_1_0_n_n_0_1_196 x0
        (broadcastInDim S800000x1 ![0] bcast_S800000_S800000x1_0
          (select (cmpi .slt x7 (broadcastInDim S800000 ![] bcast_S_S800000 (constantI S_ 32 0#32)))
            (addi x7 (broadcastInDim S800000 ![] bcast_S_S800000 (constantI S_ 32 50000#32))) x7))))

variable (m : (ℓ : Loc nD τ sig) → Buf (Elt Ideal) ℓ)

set_option maxHeartbeats 1000000 in
/-- The region finds the aggregated neighbour features in its second window's array. -/
theorem entry_side (c : Dev nD) :
    (V m c main_v12 : S50000x96.Idx → EReal)
      = kernelSide (m ((c.tc : Thread nD τ).loc main_arg0)) (m ((c.tc : Thread nD τ).loc main_arg1))
          (m ((c.tc : Thread nD τ).loc main_arg6)) (m ((c.tc : Thread nD τ).loc main_arg7)) := by
  dsimp only [Gen.V, Gen.hostOps0]
  after_results_simp
  rfl

/-- The first weight matrix arrives transposed. -/
theorem entry_w1t (c : Dev nD) :
    (V m c main_v13 : S96x96.Idx → EReal)
      = transpose S96x96 [1, 0] (m ((c.tc : Thread nD τ).loc main_arg2)) transposes_S96x96_S96x96_1_0 := by
  dsimp only [Gen.V, Gen.hostOps0]
  after_results

/-- The second weight matrix arrives transposed. -/
theorem entry_w2t (c : Dev nD) :
    (V m c main_v14 : S96x96.Idx → EReal)
      = transpose S96x96 [1, 0] (m ((c.tc : Thread nD τ).loc main_arg4)) transposes_S96x96_S96x96_1_0 := by
  dsimp only [Gen.V, Gen.hostOps0]
  after_results

/-- The first bias arrives as one row. -/
theorem entry_b1 (c : Dev nD) :
    (V m c main_v15 : S1x96.Idx → EReal)
      = shapeCast S1x96 (m ((c.tc : Thread nD τ).loc main_arg3)) shapeCasts_S96_S1x96 := by
  dsimp only [Gen.V, Gen.hostOps0]
  after_results
  rfl

/-- The second bias arrives as one row. -/
theorem entry_b2 (c : Dev nD) :
    (V m c main_v16 : S1x96.Idx → EReal)
      = shapeCast S1x96 (m ((c.tc : Thread nD τ).loc main_arg5)) shapeCasts_S96_S1x96 := by
  dsimp only [Gen.V, Gen.hostOps0]
  after_results
  rfl

end Cert.BiInteraction

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Spec.lean ====
/-
  The bi-interaction aggregator as ONE function of the node features, the aggregated neighbour features and the two
  linear layers, index by index on the extended reals.

  For a node p and an output feature q,
      out (p, q) = leaky (Σ_k (ego (p, k) + side (p, k)) · W1 (q, k) + b1 q)
                 + leaky (Σ_k (ego (p, k) · side (p, k)) · W2 (q, k) + b2 q),
  where leaky z is z when z ≥ 0 and slope · z otherwise, the slope being the f32 word nearest 0.01 (the same word in
  both programs, so it is never evaluated). Each weight matrix is read transposed: row q of W is the q-th output
  feature's weights.
-/
import Idealize.ShloMosaic.PureOps.Ideal
import Idealize.ShloMosaic.Lib.ValueIdx

noncomputable section

namespace Cert.BiInteraction

open Idealize.ShloMosaic Idealize.ShloMosaic.ValueIdx

/-- The leaky rectifier on the extended reals: the argument where it is at least zero, the slope times it elsewhere. -/
def leaky (z : EReal) : EReal :=
  Scalar.select (FloatOps.cmpf (F := Ideal) (φ := .f32) .oge z (Ideal.ofBits .f32 0x00000000#32)) z
    (Ideal.ofBits .f32 0x3C23D70A#32 * z)

/-- One linear layer and its rectifier at node p, feature q: the row p of the input against row q of the weights, plus
    the bias. -/
def head (a : (⟨2, ![50000, 96]⟩ : Shape).Idx → EReal) (W : (⟨2, ![96, 96]⟩ : Shape).Idx → EReal)
    (b : (⟨1, ![96]⟩ : Shape).Idx → EReal) (p : Fin 50000) (q : Fin 96) : EReal :=
  leaky ((∑ k : Fin 96, a (ix2 p k) * W (ix2 q k)) + b (ix1 q))

/-- The aggregator's result: the sum head over ego + side and the product head over ego · side, added. -/
def result (ego side : (⟨2, ![50000, 96]⟩ : Shape).Idx → EReal) (W1 : (⟨2, ![96, 96]⟩ : Shape).Idx → EReal)
    (b1 : (⟨1, ![96]⟩ : Shape).Idx → EReal) (W2 : (⟨2, ![96, 96]⟩ : Shape).Idx → EReal)
    (b2 : (⟨1, ![96]⟩ : Shape).Idx → EReal) : (⟨2, ![50000, 96]⟩ : Shape).Idx → EReal := fun j =>
  head (fun i => ego i + side i) W1 b1 (j 0) (j 1) + head (fun i => ego i * side i) W2 b2 (j 0) (j 1)

end Cert.BiInteraction

end
-- ==== Proof.Payload.lean ====
/-
  The kernel body's stored value on one tile of 5000 rows, read at a row p of the tile and a feature q.

  The body adds and multiplies the tile of node features and the tile of aggregated neighbour features, multiplies each
  by its (already transposed) 96 × 96 weight matrix into a zero accumulator, adds the bias row, applies the leaky
  rectifier to each and adds the two. A change of float format is the identity on the extended reals, so the two
  products are plain sums over the 96 contracted features.
-/
import proofs.«151502_j61203283968808_1_alg».proof.Proof.Gen.KernelIdeal.Skeleton
import proofs.«151502_j61203283968808_1_alg».proof.Proof.LibMatmul
import proofs.«151502_j61203283968808_1_alg».proof.Proof.Spec
import Idealize.ShloMosaic.Lib.Pipeline.Value
import Idealize.ShloMosaic.Lib.ValueLayout

noncomputable section

namespace Cert.BiInteraction

open Cert.KernelIdeal Cert.KernelIdeal.Gen Idealize.ShloMosaic Idealize.ShloMosaic.ValueIdx Idealize.ShloMosaic.Pipeline

/-- The tile's product into the zero accumulator, at (p, q): the sum over the contracted feature k of the left
    operand at (p, k) times the right operand at (k, q). -/
theorem tile_matmul_apply (a : FVec Ideal S5000x96 .bf16) (w : FVec Ideal S96x96 .bf16) (p : Fin 5000) (q : Fin 96) :
    matmul dot_S5000x96_S96x96_S5000x96_1_0_0_1_n_n none a w (constant S5000x96 .f32 0x00000000#32) (ix2 p q)
      = ∑ k : Fin 96, a (ix2 p k) * w (ix2 k q) :=
  Cert.Matmul.matmul_plain_apply none a w p q

/-- THE BODY'S STORED VALUE AT (p, q): the two rectified heads over the tile, added. The weights arrive transposed
    (feature k down the rows), the biases as one row. -/
theorem payload_apply (x0 x1 : Vec Ideal S5000x96 .f32) (w1 w2 : Vec Ideal S96x96 .f32) (c1 c2 : Vec Ideal S1x96 .f32)
    (p : Fin 5000) (q : Fin 96) :
    k0_pay1 (F := Ideal) x0 x1 w1 w2 c1 c2 (ix2 p q)
      = leaky ((∑ k : Fin 96, (x0 (ix2 p k) + x1 (ix2 p k)) * w1 (ix2 k q)) + c1 (ix2 (0 : Fin 1) q))
        + leaky ((∑ k : Fin 96, (x0 (ix2 p k) * x1 (ix2 p k)) * w2 (ix2 k q)) + c2 (ix2 (0 : Fin 1) q)) := by
  unfold k0_pay1 leaky
  simp only [shapeCast_self]
  simp only [addf_apply, select_apply, cmpf_apply, mulf_apply, broadcast_apply]
  rw [tile_matmul_apply, tile_matmul_apply, broadcastTo_1b_ab_apply, broadcastTo_1b_ab_apply]
  simp only [truncf_apply, addf_apply, mulf_apply]
  rfl

end Cert.BiInteraction

end
-- ==== Proof.KernelBlocks.lean ====
/-
  From the tiles to the whole array. Grid point t (of ten) works on rows 5000·t … 5000·t + 4999: it reads that tile of
  the node features and of the aggregated neighbour features, the whole transposed weight matrices and the bias rows,
  and writes back the same tile of the result. So what point t writes back is the tile of ONE whole-array function
  (`tiled`) of the arrays the region finds; the ten tiles cover the 50000 rows; the array ends holding that function.
-/
import proofs.«151502_j61203283968808_1_alg».proof.Proof.Gen.KernelIdeal.Value
import proofs.«151502_j61203283968808_1_alg».proof.Proof.Payload

noncomputable section

namespace Cert.BiInteraction

open Cert.KernelIdeal Cert.KernelIdeal.Gen Idealize.ShloMosaic Idealize.ShloMosaic.TcCoe Idealize.SL.Sem
open Idealize.ShloMosaic.ValueIdx
open Idealize.ShloMosaic.Pipeline (Dat)

/-- The aggregator at node p, feature q, over the arrays in the layout the region finds them: the weights already
    transposed (contracted feature k down the rows), each bias one row. -/
def tiledAt (ego side : S50000x96.Idx → EReal) (w1t : S96x96.Idx → EReal) (c1 : S1x96.Idx → EReal)
    (w2t : S96x96.Idx → EReal) (c2 : S1x96.Idx → EReal) (p : Fin 50000) (q : Fin 96) : EReal :=
  leaky ((∑ k : Fin 96, (ego (ix2 p k) + side (ix2 p k)) * w1t (ix2 k q)) + c1 (ix2 (0 : Fin 1) q))
    + leaky ((∑ k : Fin 96, (ego (ix2 p k) * side (ix2 p k)) * w2t (ix2 k q)) + c2 (ix2 (0 : Fin 1) q))

/-- The same as a whole array. -/
def tiled (ego side : S50000x96.Idx → EReal) (w1t : S96x96.Idx → EReal) (c1 : S1x96.Idx → EReal)
    (w2t : S96x96.Idx → EReal) (c2 : S1x96.Idx → EReal) : S50000x96.Idx → EReal :=
  fun i => tiledAt ego side w1t c1 w2t c2 (i 0) (i 1)

theorem origin : (![0, 0] : Fin 2 → Nat) = fun _ => 0 := funext fun a => by fin_cases a <;> rfl

/-- The printed index maps over the ten points: the row-tiled windows (node features, neighbour features, result) sit at
    block row t, block column 0; the weights and biases always at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of tile t is row 5000·t + p of the array. -/
def rowOf (t : Fin cfg0.N) (p : Fin 5000) : Fin 50000 :=
  ⟨t.val * 5000 + p.val, by have h := t.isLt; have hN : cfg0.N = 10 := N_0; have := p.isLt; omega⟩

/-! ## Each window's block at point t, read off ANY contents of its array at coordinates -/

theorem ego_tile (t : Fin cfg0.N) (A : S50000x96.Idx → EReal) (p : Fin 5000) (k : Fin 96) :
    ((View.whole main_arg0).slice ((win0 0).rect t)).read (Elt Ideal) A (ix2 p k) = A (ix2 (rowOf t p) k) := by
  obtain ⟨e0, e1, -⟩ := index_facts t
  show A (((cfg0.win 0).blk t).view.emb (ix2 p k)) = A (ix2 (rowOf t p) k)
  refine congrArg A (funext fun a => Fin.ext ?_)
  match a with
  | ⟨0, _⟩ => show win0_0.index t (0 : Fin 2) * 5000 + 1 * p.val = t.val * 5000 + p.val; omega
  | ⟨1, _⟩ => show win0_0.index t (1 : Fin 2) * 96 + 1 * k.val = k.val; omega

theorem side_tile (t : Fin cfg0.N) (A : S50000x96.Idx → EReal) (p : Fin 5000) (k : Fin 96) :
    ((View.whole main_v12).slice ((win0 1).rect t)).read (Elt Ideal) A (ix2 p k) = A (ix2 (rowOf t p) k) := by
  obtain ⟨-, -, e0, e1, -⟩ := index_facts t
  show A (((cfg0.win 1).blk t).view.emb (ix2 p k)) = A (ix2 (rowOf t p) k)
  refine congrArg A (funext fun a => Fin.ext ?_)
  match a with
  | ⟨0, _⟩ => show win0_1.index t (0 : Fin 2) * 5000 + 1 * p.val = t.val * 5000 + p.val; omega
  | ⟨1, _⟩ => show win0_1.index t (1 : Fin 2) * 96 + 1 * k.val = k.val; omega

theorem w1t_tile (t : Fin cfg0.N) (A : S96x96.Idx → EReal) (k q : Fin 96) :
    ((View.whole main_v13).slice ((win0 2).rect t)).read (Elt Ideal) A (ix2 k q) = A (ix2 k q) := by
  obtain ⟨-, -, -, -, e0, e1, -⟩ := index_facts t
  show A (((cfg0.win 2).blk t).view.emb (ix2 k q)) = A (ix2 k q)
  refine congrArg A (funext fun a => Fin.ext ?_)
  match a with
  | ⟨0, _⟩ => show win0_2.index t (0 : Fin 2) * 96 + 1 * k.val = k.val; omega
  | ⟨1, _⟩ => show win0_2.index t (1 : Fin 2) * 96 + 1 * q.val = q.val; omega

theorem b1_tile (t : Fin cfg0.N) (A : S1x96.Idx → EReal) (u : Fin 1) (q : Fin 96) :
    ((View.whole main_v15).slice ((win0 3).rect t)).read (Elt Ideal) A (ix2 u q) = A (ix2 u q) := by
  obtain ⟨-, -, -, -, -, -, e0, e1, -⟩ := index_facts t
  show A (((cfg0.win 3).blk t).view.emb (ix2 u q)) = A (ix2 u q)
  refine congrArg A (funext fun a => Fin.ext ?_)
  match a with
  | ⟨0, _⟩ => show win0_3.index t (0 : Fin 2) * 1 + 1 * u.val = u.val; omega
  | ⟨1, _⟩ => show win0_3.index t (1 : Fin 2) * 96 + 1 * q.val = q.val; omega

theorem w2t_tile (t : Fin cfg0.N) (A : S96x96.Idx → EReal) (k q : Fin 96) :
    ((View.whole main_v14).slice ((win0 4).rect t)).read (Elt Ideal) A (ix2 k q) = A (ix2 k q) := by
  obtain ⟨-, -, -, -, -, -, -, -, e0, e1, -⟩ := index_facts t
  show A (((cfg0.win 4).blk t).view.emb (ix2 k q)) = A (ix2 k q)
  refine congrArg A (funext fun a => Fin.ext ?_)
  match a with
  | ⟨0, _⟩ => show win0_4.index t (0 : Fin 2) * 96 + 1 * k.val = k.val; omega
  | ⟨1, _⟩ => show win0_4.index t (1 : Fin 2) * 96 + 1 * q.val = q.val; omega

theorem b2_tile (t : Fin cfg0.N) (A : S1x96.Idx → EReal) (u : Fin 1) (q : Fin 96) :
    ((View.whole main_v16).slice ((win0 5).rect t)).read (Elt Ideal) A (ix2 u q) = A (ix2 u q) := by
  obtain ⟨-, -, -, -, -, -, -, -, -, -, e0, e1, -⟩ := index_facts t
  show A (((cfg0.win 5).blk t).view.emb (ix2 u q)) = A (ix2 u q)
  refine congrArg A (funext fun a => Fin.ext ?_)
  match a with
  | ⟨0, _⟩ => show win0_5.index t (0 : Fin 2) * 1 + 1 * u.val = u.val; omega
  | ⟨1, _⟩ => show win0_5.index t (1 : Fin 2) * 96 + 1 * q.val = q.val; omega

/-- Entry (p, q) of the result's tile t is entry (5000·t + p, q) of the array. -/
theorem out_tile (t : Fin cfg0.N) (p : Fin 5000) (q : Fin 96) :
    ((cfg0.win 6).blk t).view.emb (ix2 p q) = ix2 (rowOf t p) q := by
  obtain ⟨-, -, -, -, -, -, -, -, -, -, -, -, e0, e1⟩ := index_facts t
  refine funext fun a => Fin.ext ?_
  match a with
  | ⟨0, _⟩ => show win0_6.index t (0 : Fin 2) * 5000 + 1 * p.val = t.val * 5000 + p.val; omega
  | ⟨1, _⟩ => show win0_6.index t (1 : Fin 2) * 96 + 1 * q.val = q.val; omega

/-! ## What a point writes back, the cover, the array -/

/-- The body's result on the tiles of ANY six arrays at point t, written back, is tile t of `tiled` of those arrays. -/
theorem tile_eq (t : Fin cfg0.N) (A0 A1 : S50000x96.Idx → EReal) (A2 : S96x96.Idx → EReal) (A3 : S1x96.Idx → EReal)
    (A4 : S96x96.Idx → EReal) (A5 : S1x96.Idx → EReal) :
    (cfg0.win 6).cut (grid0.coords t)
        (out0_6 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (tiled A0 A1 A2 A3 A4 A5) := by
  unfold out0_6
  rw [View.canon_unit_zero origin]
  simp only [View.ld_unit_zero (S := S5000x96) origin, View.ld_unit_zero (S := S96x96) origin, View.ld_unit_zero (S := S1x96) origin]
  funext j
  obtain ⟨p, q, rfl⟩ : ∃ (p : Fin 5000) (q : Fin 96), j = ix2 p q := ⟨j 0, j 1, eq_ix2 j⟩
  show k0_pay1 (F := Ideal) _ _ _ _ _ _ (ix2 p q) = tiled A0 A1 A2 A3 A4 A5 (((cfg0.win 6).blk t).view.emb (ix2 p q))
  rw [out_tile, payload_apply]
  simp only [ego_tile, side_tile, w1t_tile, b1_tile, w2t_tile, b2_tile]
  rfl

variable (m : (ℓ : Loc nD τ sig) → Buf (Elt Ideal) ℓ)

/-- WHAT POINT t WRITES BACK is tile t of `tiled` of the arrays the region finds. -/
theorem flushed_eq (c : Dev nD) (t : Fin cfg0.N) :
    (dats m 0 c).flushed 6 t = ((cfg0.win 6).blk t).view.read (Elt Ideal)
      (tiled (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))) := by
  rw [Cert.KernelIdeal.Value.flushed6]
  unfold iblk
  exact tile_eq t _ _ _ _ _ _

/-- An index is in point t's tile iff each coordinate is in the tile's range on its axis. -/
theorem mem_tile (t : Fin cfg0.N) (i : S50000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v17).slice (win0_6.rect t)).set ↔ _
  rw [View.set_slice_whole, Rect.mem_set_unit]
  exact Iff.rfl

/-- Every index lies in the tile of the point its row's quotient by 5000 names. -/
theorem tiles_cover (i : S50000x96.Idx) : ∃ t : Fin cfg0.N, (cfg0.win 6).flush t = true ∧ i ∈ ((cfg0.win 6).blk t).view.set := by
  have hN : cfg0.N = 10 := N_0
  have hi0 : (i 0).val < 50000 := (i 0).isLt
  have hi1 : (i 1).val < 96 := (i 1).isLt
  obtain ⟨t, ht⟩ : ∃ t : Fin cfg0.N, t.val = (i 0).val / 5000 := ⟨⟨(i 0).val / 5000, by omega⟩, rfl⟩
  obtain ⟨-, -, -, -, -, -, -, -, -, -, -, -, e0, e1⟩ := index_facts t
  refine ⟨t, flush0_6 t, ?_⟩
  rw [mem_tile]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 96 ≤ (i 1).val ∧ (i 1).val < win0_6.index t (1 : Fin 2) * 96 + 96; omega

/-- THE RESULT ARRAY after the run is `tiled` of the arrays the region finds. -/
theorem final (c : Dev nD) :
    (dats m 0 c).arrAt 6 cfg0.N
      = tiled (V m c (Pipeline.arrRef spec0 0)) (V m c (Pipeline.arrRef spec0 1)) (V m c (Pipeline.arrRef spec0 2))
          (V m c (Pipeline.arrRef spec0 3)) (V m c (Pipeline.arrRef spec0 4)) (V m c (Pipeline.arrRef spec0 5)) :=
  (dats m 0 c).arrAt_eq_of_cover 6 _ (fun t _ => flushed_eq m c t) tiles_cover

end Cert.BiInteraction

end
-- ==== Proof.KernelRun.lean ====
/-
  The idealized kernel's run, read back: its result array ends holding the aggregator's function of the launched
  arguments and of the aggregated neighbour features.

  In the layout the region finds, a transposed weight matrix read at (k, q) is the weight matrix at (q, k), and a bias
  row read at (0, q) is the bias at q: so the whole-array function of the tiles is the specification's function.
-/
import proofs.«151502_j61203283968808_1_alg».proof.Proof.KernelEntry
import proofs.«151502_j61203283968808_1_alg».proof.Proof.KernelBlocks

noncomputable section

namespace Cert.BiInteraction

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- A weight matrix transposed reads, at (k, q), the weight matrix at (q, k). -/
theorem weights_transposed (W : S96x96.Idx → EReal) (h : S96x96.Transposes [1, 0] S96x96) (k q : Fin 96) :
    transpose S96x96 [1, 0] W h (ix2 k q) = W (ix2 q k) :=
  transpose_apply [1, 0] W h (ix2 k q) (ix2 q k) (fun b => match b with | ⟨0, _⟩ => rfl | ⟨1, _⟩ => rfl)

/-- The whole-array function of the tiles, at the arrays the region finds, is the aggregator's function of the launched
    arguments and of the aggregated neighbour features. -/
theorem tiled_entry (c : Dev nD) :
    tiled (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))
      = result (m ((c.tc : Thread nD τ).loc main_arg0))
          (kernelSide (m ((c.tc : Thread nD τ).loc main_arg0)) (m ((c.tc : Thread nD τ).loc main_arg1))
            (m ((c.tc : Thread nD τ).loc main_arg6)) (m ((c.tc : Thread nD τ).loc main_arg7)))
          (m ((c.tc : Thread nD τ).loc main_arg2)) (m ((c.tc : Thread nD τ).loc main_arg3))
          (m ((c.tc : Thread nD τ).loc main_arg4)) (m ((c.tc : Thread nD τ).loc main_arg5)) := by
  show tiled (V m c main_arg0) (V m c main_v12) (V m c main_v13) (V m c main_v15) (V m c main_v14) (V m c main_v16) = _
  rw [V_main_arg0 m c, entry_side m c, entry_w1t m c, entry_b1 m c, entry_w2t m c, entry_b2 m c]
  funext j
  obtain ⟨p, q, rfl⟩ : ∃ (p : Fin 50000) (q : Fin 96), j = ix2 p q := ⟨j 0, j 1, eq_ix2 j⟩
  show tiledAt _ _ _ _ _ _ p q = head _ _ _ p q + head _ _ _ p q
  unfold tiledAt head
  have e1 : ∀ k : Fin 96, transpose S96x96 [1, 0] (m ((c.tc : Thread nD τ).loc main_arg2)) transposes_S96x96_S96x96_1_0 (ix2 k q)
      = m ((c.tc : Thread nD τ).loc main_arg2) (ix2 q k) := fun k => weights_transposed _ _ k q
  have e2 : ∀ k : Fin 96, transpose S96x96 [1, 0] (m ((c.tc : Thread nD τ).loc main_arg4)) transposes_S96x96_S96x96_1_0 (ix2 k q)
      = m ((c.tc : Thread nD τ).loc main_arg4) (ix2 q k) := fun k => weights_transposed _ _ k q
  simp only [e1, e2, shapeCast_a_1a_apply]

/-- THE KERNEL'S RUN: every weakly fair execution terminates with the result array at the aggregator's function, the
    arguments unchanged. -/
theorem kernel_run : θ_run defs (onTc (τ := τ) (main (F := Ideal))) ⟨m, fun _ => 0, ρ⟩ fun r => ∀ c : Dev nD,
      r.2.mem ((c : Thread nD τ).loc main_v17)
        = result (m ((c.tc : Thread nD τ).loc main_arg0))
            (kernelSide (m ((c.tc : Thread nD τ).loc main_arg0)) (m ((c.tc : Thread nD τ).loc main_arg1))
              (m ((c.tc : Thread nD τ).loc main_arg6)) (m ((c.tc : Thread nD τ).loc main_arg7)))
            (m ((c.tc : Thread nD τ).loc main_arg2)) (m ((c.tc : Thread nD τ).loc main_arg3))
            (m ((c.tc : Thread nD τ).loc main_arg4)) (m ((c.tc : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1.trans (final m c)).trans (tiled_entry m c), (h c).2⟩)
    (Cert.KernelIdeal.Value.run_blocks m ρ)

end Cert.BiInteraction

end
-- ==== Proof.RefValue.lean ====
/-
  The reference's result, read one operation at a time, is the aggregator's function of the arguments and of the
  aggregated neighbour features (the scatter-add's stage, kept whole: both programs compute it by the same operations).

  Each of its two heads is a dot_general of a 50000 × 96 array with a transposed weight matrix, so at (p, q) it is the
  sum over k of the row p against ROW q of the untransposed weights; the bias is broadcast along the rows; the
  rectifier is a compare, a product with the slope word and a select.
-/
import proofs.«151502_j61203283968808_1_alg».proof.Proof.Gen.ReferenceIdeal.Read
import proofs.«151502_j61203283968808_1_alg».proof.Proof.Spec

noncomputable section

namespace Cert.BiInteraction

open Cert.ReferenceIdeal Cert.ReferenceIdeal.Read Idealize.ShloMosaic Idealize.ShloMosaic.ValueIdx

/-! ## The index maps of the reference's layout operations, at coordinates -/

theorem lidx15 (p : Fin 50000) (q k : Fin 96) : lidx_main_v15 (ix2 p q) k = ix2 p k :=
  funext fun a => Fin.ext (by match a with | ⟨0, _⟩ => rfl | ⟨1, _⟩ => rfl)
theorem ridx15 (p : Fin 50000) (q k : Fin 96) : idx_main_v14 (ridx_main_v15 (ix2 p q) k) = ix2 q k :=
  funext fun a => Fin.ext (by match a with | ⟨0, _⟩ => rfl | ⟨1, _⟩ => rfl)
theorem bias17 (p : Fin 50000) (q : Fin 96) : idx_main_v16 (idx_main_v17 (ix2 p q)) = ix1 q :=
  funext fun a => Fin.ext (by match a with | ⟨0, _⟩ => rfl)
theorem lidx26 (p : Fin 50000) (q k : Fin 96) : lidx_main_v26 (ix2 p q) k = ix2 p k :=
  funext fun a => Fin.ext (by match a with | ⟨0, _⟩ => rfl | ⟨1, _⟩ => rfl)
theorem ridx26 (p : Fin 50000) (q k : Fin 96) : idx_main_v25 (ridx_main_v26 (ix2 p q) k) = ix2 q k :=
  funext fun a => Fin.ext (by match a with | ⟨0, _⟩ => rfl | ⟨1, _⟩ => rfl)
theorem bias28 (p : Fin 50000) (q : Fin 96) : idx_main_v27 (idx_main_v28 (ix2 p q)) = ix1 q :=
  funext fun a => Fin.ext (by match a with | ⟨0, _⟩ => rfl)

variable (x0 : (⟨S50000x96, .f32⟩ : BufTy).Contents (Elt Ideal)) (x1 : (⟨S800000, .f32⟩ : BufTy).Contents (Elt Ideal))
  (x2 : (⟨S96x96, .f32⟩ : BufTy).Contents (Elt Ideal)) (x3 : (⟨S96, .f32⟩ : BufTy).Contents (Elt Ideal))
  (x4 : (⟨S96x96, .f32⟩ : BufTy).Contents (Elt Ideal)) (x5 : (⟨S96, .f32⟩ : BufTy).Contents (Elt Ideal))
  (x6 x7 : (⟨S800000, .i32⟩ : BufTy).Contents (Elt Ideal))

/-! ## The two linear layers before their rectifiers -/

/-- The sum head's pre-activation at (p, q): the row p of ego + side against row q of W1, plus b1 q. -/
theorem sum_layer_apply (p : Fin 50000) (q : Fin 96) :
    val_main_v18 (F := Ideal) x0 x1 x2 x3 x6 x7 (ix2 p q)
      = (∑ k : Fin 96, (x0 (ix2 p k) + val_main_v12 (F := Ideal) x0 x1 x6 x7 (ix2 p k)) * x2 (ix2 q k)) + x3 (ix1 q) := by
  rw [val_main_v18_apply, val_main_v15_apply, val_main_v17_apply, val_main_v16_apply, bias17]
  simp only [val_main_v13_apply, val_main_v14_apply, lidx15, ridx15]
  rfl

/-- The product head's pre-activation at (p, q): the row p of ego · side against row q of W2, plus b2 q. -/
theorem prod_layer_apply (p : Fin 50000) (q : Fin 96) :
    val_main_v29 (F := Ideal) x0 x1 x4 x5 x6 x7 (ix2 p q)
      = (∑ k : Fin 96, (x0 (ix2 p k) * val_main_v12 (F := Ideal) x0 x1 x6 x7 (ix2 p k)) * x4 (ix2 q k)) + x5 (ix1 q) := by
  rw [val_main_v29_apply, val_main_v26_apply, val_main_v28_apply, val_main_v27_apply, bias28]
  simp only [val_main_v24_apply, val_main_v25_apply, lidx26, ridx26]
  rfl

/-! ## The result -/

/-- THE REFERENCE'S RESULT IS THE AGGREGATOR'S FUNCTION of the arguments and of the scatter-add's stage. -/
theorem reference_eq :
    val_main_v35 (F := Ideal) x0 x1 x2 x3 x4 x5 x6 x7
      = result x0 (val_main_v12 (F := Ideal) x0 x1 x6 x7) x2 x3 x4 x5 := by
  funext j
  obtain ⟨p, q, rfl⟩ : ∃ (p : Fin 50000) (q : Fin 96), j = ix2 p q := ⟨j 0, j 1, eq_ix2 j⟩
  rw [val_main_v35_apply, val_main_v23_apply, val_main_v34_apply, val_main_v20_apply, val_main_v22_apply,
    val_main_v31_apply, val_main_v33_apply, val_main_v19_apply, val_main_v21_apply, val_main_v30_apply,
    val_main_v32_apply, val_main_cst_1_apply, val_main_cst_2_apply, val_main_cst_3_apply, val_main_cst_4_apply]
  simp only [sum_layer_apply, prod_layer_apply]
  rfl

end Cert.BiInteraction

end
-- ==== Proof.lean ====
/-
  The bi-interaction aggregator over a sparse neighbourhood sum, kernel against reference, on the extended reals.

  Both programs first form side = A · ego by the same host operations (a gather of ego rows by the edges' column
  indices, a product with the edge values, a scatter-add by the edges' row indices); it is carried as one stage, never
  opened. Then
      out (p, q) = leaky (Σ_k (ego + side)(p, k) · W1 (q, k) + b1 q) + leaky (Σ_k (ego · side)(p, k) · W2 (q, k) + b2 q).
  The kernel computes this tile by tile (ten tiles of 5000 rows) with the weights transposed beforehand and multiplied
  into a zero accumulator; the reference by two dot_generals over the whole array. At the ideal instance a change of
  float format is the identity and both products are the same sum over the 96 features, term by term, so no
  algebraic law beyond reading the two sides at an index is used, and the precondition is never opened.
-/
import proofs.«151502_j61203283968808_1_alg».proof.Defs
import proofs.«151502_j61203283968808_1_alg».proof.Proof.Gen.Kernel
import proofs.«151502_j61203283968808_1_alg».proof.Proof.Gen.Kernel.Skeleton
import proofs.«151502_j61203283968808_1_alg».proof.Proof.Gen.Kernel.Launch
import proofs.«151502_j61203283968808_1_alg».proof.Proof.Gen.Kernel.Points
import proofs.«151502_j61203283968808_1_alg».proof.Proof.Gen.Kernel.Frame
import proofs.«151502_j61203283968808_1_alg».proof.Proof.Gen.KernelIdeal
import proofs.«151502_j61203283968808_1_alg».proof.Proof.Gen.KernelIdeal.Skeleton
import proofs.«151502_j61203283968808_1_alg».proof.Proof.Gen.KernelIdeal.Launch
import proofs.«151502_j61203283968808_1_alg».proof.Proof.Gen.KernelIdeal.Points
import proofs.«151502_j61203283968808_1_alg».proof.Proof.Gen.KernelIdeal.Frame
import proofs.«151502_j61203283968808_1_alg».proof.Proof.Gen.ReferenceIdeal
import proofs.«151502_j61203283968808_1_alg».proof.Proof.Gen.KernelIdeal.Value
import proofs.«151502_j61203283968808_1_alg».proof.Proof.Gen.ReferenceIdeal.Run
import proofs.«151502_j61203283968808_1_alg».proof.Proof.Gen.ReferenceIdeal.Read
import proofs.«151502_j61203283968808_1_alg».proof.Proof.Gen.Pre_finite_inputs
import proofs.«151502_j61203283968808_1_alg».proof.Proof.KernelRun
import proofs.«151502_j61203283968808_1_alg».proof.Proof.RefValue
import Idealize.ShloMosaic.Adequacy
import Idealize.ShloMosaic.Init

noncomputable section

namespace Cert.Proof

open Idealize.ShloMosaic Idealize.ShloMosaic.TcCoe Idealize.SL.Sem Cert.BiInteraction

/-- The reference's scatter-add stage is the kernel's: the same operations of the same four arguments. -/
theorem side_same (x0 : (⟨Cert.ReferenceIdeal.S50000x96, .f32⟩ : BufTy).Contents (Elt Ideal))
    (x1 : (⟨Cert.ReferenceIdeal.S800000, .f32⟩ : BufTy).Contents (Elt Ideal))
    (x6 x7 : (⟨Cert.ReferenceIdeal.S800000, .i32⟩ : BufTy).Contents (Elt Ideal)) :
    Cert.ReferenceIdeal.Read.val_main_v12 (F := Ideal) x0 x1 x6 x7 = kernelSide x0 x1 x6 x7 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both runs end at the aggregator's function of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v35_eq, reference_eq, side_same, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
